-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S10000x512 : Shape := ⟨2, ![10000, 512]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S512 .f32) (main_arg6 : FVec F S512x256 .f32) (main_arg7 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S10000x512 .f32) (main_arg3 : FVec F S10000x256 .f32) (main_arg4 : FVec F S256x512 .f32) (main_arg5 : FVec F S512 .f32) (main_arg6 : FVec F S512x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S10000x256 .f32 := Host.absf main_arg3
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S10000x512 : Shape := ⟨2, ![10000, 512]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S1000x256 : Shape := ⟨2, ![1000, 256]⟩
abbrev S1000x512 : Shape := ⟨2, ![1000, 512]⟩
abbrev S330000x512 : Shape := ⟨2, ![330000, 512]⟩
abbrev S1x512 : Shape := ⟨2, ![1, 512]⟩
abbrev S330000x256 : Shape := ⟨2, ![330000, 256]⟩
abbrev S1x256 : Shape := ⟨2, ![1, 256]⟩

abbrev nBuf : Space → Nat
  | .hbm => 83
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S10000x512, .f32⟩
  | .hbm, ⟨3, _⟩ => ⟨S10000x256, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10000, .i32⟩
  | .hbm, ⟨13, _⟩ => ⟨S330000, .i32⟩
  | .hbm, ⟨14, _⟩ => ⟨S330000, .i32⟩
  | .hbm, ⟨15, _⟩ => ⟨S_, .f32⟩
  | .hbm, ⟨16, _⟩ => ⟨S330000, .f32⟩
  | .hbm, ⟨17, _⟩ => ⟨S_, .f32⟩
  | .hbm, ⟨18, _⟩ => ⟨S10000, .f32⟩
  | .hbm, ⟨19, _⟩ => ⟨S330000x1, .i32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S330000, .i32⟩
  | .hbm, ⟨24, _⟩ => ⟨S330000, .i1⟩
  | .hbm, ⟨25, _⟩ => ⟨S_, .i32⟩
  | .hbm, ⟨26, _⟩ => ⟨S330000, .i32⟩
  | .hbm, ⟨27, _⟩ => ⟨S330000, .i32⟩
  | .hbm, ⟨28, _⟩ => ⟨S330000, .i32⟩
  | .hbm, ⟨29, _⟩ => ⟨S330000x1, .i32⟩
  | .hbm, ⟨30, _⟩ => ⟨S330000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S10000x512, .f32⟩
  | .hbm, ⟨42, _⟩ => ⟨S_, .i32⟩
  | .hbm, ⟨43, _⟩ => ⟨S330000, .i32⟩
  | .hbm, ⟨44, _⟩ => ⟨S330000, .i1⟩
  | .hbm, ⟨45, _⟩ => ⟨S_, .i32⟩
  | .hbm, ⟨46, _⟩ => ⟨S330000, .i32⟩
  | .hbm, ⟨47, _⟩ => ⟨S330000, .i32⟩
  | .hbm, ⟨48, _⟩ => ⟨S330000, .i32⟩
  | .hbm, ⟨49, _⟩ => ⟨S330000x1, .i32⟩
  | .hbm, ⟨50, _⟩ => ⟨S330000x512, .f32⟩
  | .hbm, ⟨51, _⟩ => ⟨S330000x1, .f32⟩
  | .hbm, ⟨52, _⟩ => ⟨S330000x512, .f32⟩
  | .hbm, ⟨53, _⟩ => ⟨S330000x512, .f32⟩
  | .hbm, ⟨54, _⟩ => ⟨S_, .f32⟩
  | .hbm, ⟨55, _⟩ => ⟨S10000x512, .f32⟩
  | .hbm, ⟨56, _⟩ => ⟨S330000x1, .i32⟩
  | .hbm, ⟨57, _⟩ => ⟨S10000x512, .f32⟩
  | .hbm, ⟨58, _⟩ => ⟨S1x512, .f32⟩
  | .hbm, ⟨59, _⟩ => ⟨S10000x512, .f32⟩
  | .hbm, ⟨60, _⟩ => ⟨S10000x512, .f32⟩
  | .hbm, ⟨61, _⟩ => ⟨S10000x512, .f32⟩
  | .hbm, ⟨62, _⟩ => ⟨S10000x256, .f32⟩
  | .hbm, ⟨63, _⟩ => ⟨S_, .i32⟩
  | .hbm, ⟨64, _⟩ => ⟨S330000, .i32⟩
  | .hbm, ⟨65, _⟩ => ⟨S330000, .i1⟩
  | .hbm, ⟨66, _⟩ => ⟨S_, .i32⟩
  | .hbm, ⟨67, _⟩ => ⟨S330000, .i32⟩
  | .hbm, ⟨68, _⟩ => ⟨S330000, .i32⟩
  | .hbm, ⟨69, _⟩ => ⟨S330000, .i32⟩
  | .hbm, ⟨70, _⟩ => ⟨S330000x1, .i32⟩
  | .hbm, ⟨71, _⟩ => ⟨S330000x256, .f32⟩
  | .hbm, ⟨72, _⟩ => ⟨S330000x1, .f32⟩
  | .hbm, ⟨73, _⟩ => ⟨S330000x256, .f32⟩
  | .hbm, ⟨74, _⟩ => ⟨S330000x256, .f32⟩
  | .hbm, ⟨75, _⟩ => ⟨S_, .f32⟩
  | .hbm, ⟨76, _⟩ => ⟨S10000x256, .f32⟩
  | .hbm, ⟨77, _⟩ => ⟨S330000x1, .i32⟩
  | .hbm, ⟨78, _⟩ => ⟨S10000x256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1000x512_S1000x512_0_0 : ∀ a, (![0, 0] : Fin 2 → Nat) a + S1000x512.size a ≤ S1000x512.size a
  h_S1000x512 : 0 < S1000x512.numel
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S1000x256_S256x512_S1000x512_1_0_0_1_n_n_wf : DotDims.WF S1000x256 S256x512 S1000x512 [1] [0] [0] [1] [] []
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S1000x512_S512x256_S1000x256_1_0_0_1_n_n_wf : DotDims.WF S1000x512 S512x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S10000x512 : Shape := ⟨2, ![10000, 512]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x512 : Shape := ⟨2, ![330000, 512]⟩
abbrev S1x512 : Shape := ⟨2, ![1, 512]⟩
abbrev S330000x256 : Shape := ⟨2, ![330000, 256]⟩
abbrev S1x256 : Shape := ⟨2, ![1, 256]⟩

abbrev nBuf : Space → Nat
  | .hbm => 112
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S10000x512, .f32⟩
  | .hbm, ⟨3, _⟩ => ⟨S10000x256, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10000, .i32⟩
  | .hbm, ⟨13, _⟩ => ⟨S330000, .i32⟩
  | .hbm, ⟨14, _⟩ => ⟨S330000, .i32⟩
  | .hbm, ⟨15, _⟩ => ⟨S_, .f32⟩
  | .hbm, ⟨16, _⟩ => ⟨S330000, .f32⟩
  | .hbm, ⟨17, _⟩ => ⟨S_, .f32⟩
  | .hbm, ⟨18, _⟩ => ⟨S10000, .f32⟩
  | .hbm, ⟨19, _⟩ => ⟨S330000x1, .i32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S330000, .i32⟩
  | .hbm, ⟨24, _⟩ => ⟨S330000, .i1⟩
  | .hbm, ⟨25, _⟩ => ⟨S_, .i32⟩
  | .hbm, ⟨26, _⟩ => ⟨S330000, .i32⟩
  | .hbm, ⟨27, _⟩ => ⟨S330000, .i32⟩
  | .hbm, ⟨28, _⟩ => ⟨S330000, .i32⟩
  | .hbm, ⟨29, _⟩ => ⟨S330000x1, .i32⟩
  | .hbm, ⟨30, _⟩ => ⟨S330000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S10000x512, .f32⟩
  | .hbm, ⟨42, _⟩ => ⟨S_, .i32⟩
  | .hbm, ⟨43, _⟩ => ⟨S330000, .i32⟩
  | .hbm, ⟨44, _⟩ => ⟨S330000, .i1⟩
  | .hbm, ⟨45, _⟩ => ⟨S_, .i32⟩
  | .hbm, ⟨46, _⟩ => ⟨S330000, .i32⟩
  | .hbm, ⟨47, _⟩ => ⟨S330000, .i32⟩
  | .hbm, ⟨48, _⟩ => ⟨S330000, .i32⟩
  | .hbm, ⟨49, _⟩ => ⟨S330000x1, .i32⟩
  | .hbm, ⟨50, _⟩ => ⟨S330000x512, .f32⟩
  | .hbm, ⟨51, _⟩ => ⟨S330000x1, .f32⟩
  | .hbm, ⟨52, _⟩ => ⟨S330000x512, .f32⟩
  | .hbm, ⟨53, _⟩ => ⟨S330000x512, .f32⟩
  | .hbm, ⟨54, _⟩ => ⟨S_, .f32⟩
  | .hbm, ⟨55, _⟩ => ⟨S10000x512, .f32⟩
  | .hbm, ⟨56, _⟩ => ⟨S330000x1, .i32⟩
  | .hbm, ⟨57, _⟩ => ⟨S10000x512, .f32⟩
  | .hbm, ⟨58, _⟩ => ⟨S1x512, .f32⟩
  | .hbm, ⟨59, _⟩ => ⟨S10000x512, .f32⟩
  | .hbm, ⟨60, _⟩ => ⟨S10000x512, .f32⟩
  | .hbm, ⟨61, _⟩ => ⟨S10000x512, .f32⟩
  | .hbm, ⟨62, _⟩ => ⟨S10000, .i32⟩
  | .hbm, ⟨63, _⟩ => ⟨S330000, .i32⟩
  | .hbm, ⟨64, _⟩ => ⟨S330000, .i32⟩
  | .hbm, ⟨65, _⟩ => ⟨S_, .f32⟩
  | .hbm, ⟨66, _⟩ => ⟨S330000, .f32⟩
  | .hbm, ⟨67, _⟩ => ⟨S_, .f32⟩
  | .hbm, ⟨68, _⟩ => ⟨S10000, .f32⟩
  | .hbm, ⟨69, _⟩ => ⟨S330000x1, .i32⟩
  | .hbm, ⟨70, _⟩ => ⟨S10000, .f32⟩
  | .hbm, ⟨71, _⟩ => ⟨S10000, .f32⟩
  | .hbm, ⟨72, _⟩ => ⟨S_, .i32⟩
  | .hbm, ⟨73, _⟩ => ⟨S330000, .i32⟩
  | .hbm, ⟨74, _⟩ => ⟨S330000, .i1⟩
  | .hbm, ⟨75, _⟩ => ⟨S_, .i32⟩
  | .hbm, ⟨76, _⟩ => ⟨S330000, .i32⟩
  | .hbm, ⟨77, _⟩ => ⟨S330000, .i32⟩
  | .hbm, ⟨78, _⟩ => ⟨S330000, .i32⟩
  | .hbm, ⟨79, _⟩ => ⟨S330000x1, .i32⟩
  | .hbm, ⟨80, _⟩ => ⟨S330000, .f32⟩
  | .hbm, ⟨81, _⟩ => ⟨S_, .i32⟩
  | .hbm, ⟨82, _⟩ => ⟨S330000, .i32⟩
  | .hbm, ⟨83, _⟩ => ⟨S330000, .i1⟩
  | .hbm, ⟨84, _⟩ => ⟨S_, .i32⟩
  | .hbm, ⟨85, _⟩ => ⟨S330000, .i32⟩
  | .hbm, ⟨86, _⟩ => ⟨S330000, .i32⟩
  | .hbm, ⟨87, _⟩ => ⟨S330000, .i32⟩
  | .hbm, ⟨88, _⟩ => ⟨S330000x1, .i32⟩
  | .hbm, ⟨89, _⟩ => ⟨S330000, .f32⟩
  | .hbm, ⟨90, _⟩ => ⟨S330000, .f32⟩
  | .hbm, ⟨91, _⟩ => ⟨S10000x256, .f32⟩
  | .hbm, ⟨92, _⟩ => ⟨S_, .i32⟩
  | .hbm, ⟨93, _⟩ => ⟨S330000, .i32⟩
  | .hbm, ⟨94, _⟩ => ⟨S330000, .i1⟩
  | .hbm, ⟨95, _⟩ => ⟨S_, .i32⟩
  | .hbm, ⟨96, _⟩ => ⟨S330000, .i32⟩
  | .hbm, ⟨97, _⟩ => ⟨S330000, .i32⟩
  | .hbm, ⟨98, _⟩ => ⟨S330000, .i32⟩
  | .hbm, ⟨99, _⟩ => ⟨S330000x1, .i32⟩
  | .hbm, ⟨100, _⟩ => ⟨S330000x256, .f32⟩
  | .hbm, ⟨101, _⟩ => ⟨S330000x1, .f32⟩
  | .hbm, ⟨102, _⟩ => ⟨S330000x256, .f32⟩
  | .hbm, ⟨103, _⟩ => ⟨S330000x256, .f32⟩
  | .hbm, ⟨104, _⟩ => ⟨S_, .f32⟩
  | .hbm, ⟨105, _⟩ => ⟨S10000x256, .f32⟩
  | .hbm, ⟨106, _⟩ => ⟨S330000x1, .i32⟩
  | .hbm, ⟨107, _⟩ => ⟨S10000x256, .f32⟩
  | .hbm, ⟨108, _⟩ => ⟨S1x256, .f32⟩
  | .hbm, ⟨109, _⟩ => ⟨S10000x256, .f32⟩
  | .hbm, ⟨110, _⟩ => ⟨S10000x256, .f32⟩
  | .hbm, ⟨111, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x512_S10000x512_1_0_0_1_n_n_wf : DotDims.WF S10000x256 S256x512 S10000x512 [1] [0] [0] [1] [] []
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S10000x512_S512x256_S10000x256_1_0_0_1_n_n_wf : DotDims.WF S10000x512 S512x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf

class Facts : Prop extends Facts₀ where

variable [Facts]
-- ==== Proof.Stages.lean ====
import proofs.«178323_j55714315764099_1_alg».proof.Proof.Gen.KernelIdeal

/-!
  The graph convolution around the two matrix products, as functions of arrays.

  The edge list `e` is a 2 × 320000 array of node numbers: row 0 the sources, row 1 the targets. Every node gets a
  self-loop, so both rows are extended by 0, 1, …, 9999 (`sources`, `targets`: 330000 entries each). The degree of a node
  counts the extended edges arriving at it (a scatter-add of ones along the targets), and an extended edge s → d carries the
  coefficient deg(s)^(-1/2) · deg(d)^(-1/2) (`coefficients`). A node number is looked up the way the array library does:
  a negative number counts from the end (`wrapped` adds 10000 to it).

  One layer takes the product h = x·W of the node features with the weights, gathers row s of h for every extended edge,
  scales it by the edge's coefficient, adds it into row d of a zero array, and adds the bias row and the perturbation
  (`layer512` for the hidden width, `layer256` for the output width). The whole network is two layers, the second fed by
  the first (`network`); it is stated over any two product functions, so that the same text serves a product formed block
  by block on the matrix unit and one formed whole on the host.
-/

noncomputable section

namespace Cert.KernelIdeal.Stages

open Cert.KernelIdeal Cert.KernelIdeal.Gen Idealize.ShloMosaic

variable {F : FTy → Type} [FloatOps F]

/-- The edges' sources, then each node once (its self-loop). -/
def sources (e : (⟨S2x320000, .i32⟩ : BufTy).Contents (Elt F)) : (⟨S330000, .i32⟩ : BufTy).Contents (Elt F) :=
  concatenate S330000 0 [⟨S320000, shapeCast S320000 (extractStridedSlice S1x320000 ![0, 0] e slices_S2x320000_S1x320000_0_0) shapeCasts_S1x320000_S320000⟩, ⟨S10000, iotaInDim S10000 32 0⟩] concatenates_S320000_S10000_S330000_d0

/-- The edges' targets, then each node once. -/
def targets (e : (⟨S2x320000, .i32⟩ : BufTy).Contents (Elt F)) : (⟨S330000, .i32⟩ : BufTy).Contents (Elt F) :=
  concatenate S330000 0 [⟨S320000, shapeCast S320000 (extractStridedSlice S1x320000 ![1, 0] e slices_S2x320000_S1x320000_1_0) shapeCasts_S1x320000_S320000⟩, ⟨S10000, iotaInDim S10000 32 0⟩] concatenates_S320000_S10000_S330000_d0

/-- A node number as a row index: a negative one counts from the end of the 10000 rows. -/
def wrapped (v : (⟨S330000, .i32⟩ : BufTy).Contents (Elt F)) : (⟨S330000, .i32⟩ : BufTy).Contents (Elt F) :=
  select (cmpi .slt v (broadcastInDim S330000 ![] bcast_S_S330000 (constantI S_ 32 0#32))) (addi v (broadcastInDim S330000 ![] bcast_S_S330000 (constantI S_ 32 10000#32))) v

/-- deg^(-1/2) per node, the degree counting the extended edges that arrive at the node. -/
def inverseRootDegree (e : (⟨S2x320000, .i32⟩ : BufTy).Contents (Elt F)) : (⟨S10000, .f32⟩ : BufTy).Contents (Elt F) :=
  Host.rsqrt (Host.scatterAdd scatter_S10000_S330000x1_S330000_n_0_0_1 (broadcastInDim S10000 ![] bcast_S_S10000 (constant S_ .f32 0x00000000#32)) (broadcastInDim S330000x1 ![0] bcast_S330000_S330000x1_0 (targets e)) (broadcastInDim S330000 ![] bcast_S_S330000 (constant S_ .f32 0x3F800000#32)))

/-- The coefficient of each extended edge s → d: deg(s)^(-1/2) · deg(d)^(-1/2). -/
def coefficients (e : (⟨S2x320000, .i32⟩ : BufTy).Contents (Elt F)) : (⟨S330000, .f32⟩ : BufTy).Contents (Elt F) :=
  mulf (Host.gather gather_S10000_S330000x1_S330000_n_0_n_n_0_1_1 (inverseRootDegree e) (broadcastInDim S330000x1 ![0] bcast_S330000_S330000x1_0 (wrapped (sources e))))
    (Host.gather gather_S10000_S330000x1_S330000_n_0_n_n_0_1_1 (inverseRootDegree e) (broadcastInDim S330000x1 ![0] bcast_S330000_S330000x1_0 (wrapped (targets e))))

/-- One layer at width 512 from the product `h`: for every extended edge s → d with coefficient w, row s of `h` times w is
    added into row d; then the bias row `b` and the perturbation `p`. -/
def layer512 (h : (⟨S10000x512, .f32⟩ : BufTy).Contents (Elt F)) (s d : (⟨S330000, .i32⟩ : BufTy).Contents (Elt F))
    (w : (⟨S330000, .f32⟩ : BufTy).Contents (Elt F)) (b : (⟨S512, .f32⟩ : BufTy).Contents (Elt F))
    (p : (⟨S10000x512, .f32⟩ : BufTy).Contents (Elt F)) : (⟨S10000x512, .f32⟩ : BufTy).Contents (Elt F) :=
  addf (addf (Host.scatterAdd scatter_S10000x512_S330000x1_S330000x512_1_0_0_1 (broadcastInDim S10000x512 ![] bcast_S_S10000x512 (constant S_ .f32 0x00000000#32)) (broadcastInDim S330000x1 ![0] bcast_S330000_S330000x1_0 d)
      (mulf (Host.gather gather_S10000x512_S330000x1_S330000x512_1_0_n_n_0_1_1512 h (broadcastInDim S330000x1 ![0] bcast_S330000_S330000x1_0 (wrapped s)))
        (broadcastInDim S330000x512 ![0, 1] bcast_S330000x1_S330000x512_0_1 (broadcastInDim S330000x1 ![0] bcast_S330000_S330000x1_0 w))))
    (broadcastInDim S10000x512 ![0, 1] bcast_S1x512_S10000x512_0_1 (broadcastInDim S1x512 ![1] bcast_S512_S1x512_1 b))) p

/-- The same layer at width 256. -/
def layer256 (h : (⟨S10000x256, .f32⟩ : BufTy).Contents (Elt F)) (s d : (⟨S330000, .i32⟩ : BufTy).Contents (Elt F))
    (w : (⟨S330000, .f32⟩ : BufTy).Contents (Elt F)) (b : (⟨S256, .f32⟩ : BufTy).Contents (Elt F))
    (p : (⟨S10000x256, .f32⟩ : BufTy).Contents (Elt F)) : (⟨S10000x256, .f32⟩ : BufTy).Contents (Elt F) :=
  addf (addf (Host.scatterAdd scatter_S10000x256_S330000x1_S330000x256_1_0_0_1 (broadcastInDim S10000x256 ![] bcast_S_S10000x256 (constant S_ .f32 0x00000000#32)) (broadcastInDim S330000x1 ![0] bcast_S330000_S330000x1_0 d)
      (mulf (Host.gather gather_S10000x256_S330000x1_S330000x256_1_0_n_n_0_1_1256 h (broadcastInDim S330000x1 ![0] bcast_S330000_S330000x1_0 (wrapped s)))
        (broadcastInDim S330000x256 ![0, 1] bcast_S330000x1_S330000x256_0_1 (broadcastInDim S330000x1 ![0] bcast_S330000_S330000x1_0 w))))
    (broadcastInDim S10000x256 ![0, 1] bcast_S1x256_S10000x256_0_1 (broadcastInDim S1x256 ![1] bcast_S256_S1x256_1 b))) p

/-- The two layers, the second fed by the first, over two product functions `mm₁` (10000×256 by 256×512) and `mm₂`
    (10000×512 by 512×256). -/
def network
    (mm₁ : (⟨S10000x256, .f32⟩ : BufTy).Contents (Elt F) → (⟨S256x512, .f32⟩ : BufTy).Contents (Elt F) → (⟨S10000x512, .f32⟩ : BufTy).Contents (Elt F))
    (mm₂ : (⟨S10000x512, .f32⟩ : BufTy).Contents (Elt F) → (⟨S512x256, .f32⟩ : BufTy).Contents (Elt F) → (⟨S10000x256, .f32⟩ : BufTy).Contents (Elt F))
    (x : (⟨S10000x256, .f32⟩ : BufTy).Contents (Elt F)) (e : (⟨S2x320000, .i32⟩ : BufTy).Contents (Elt F))
    (p₁ : (⟨S10000x512, .f32⟩ : BufTy).Contents (Elt F)) (p₂ : (⟨S10000x256, .f32⟩ : BufTy).Contents (Elt F))
    (W₁ : (⟨S256x512, .f32⟩ : BufTy).Contents (Elt F)) (b₁ : (⟨S512, .f32⟩ : BufTy).Contents (Elt F))
    (W₂ : (⟨S512x256, .f32⟩ : BufTy).Contents (Elt F)) (b₂ : (⟨S256, .f32⟩ : BufTy).Contents (Elt F)) :
    (⟨S10000x256, .f32⟩ : BufTy).Contents (Elt F) :=
  layer256 (mm₂ (layer512 (mm₁ x W₁) (sources e) (targets e) (coefficients e) b₁ p₁) W₂) (sources e) (targets e) (coefficients e) b₂ p₂

end Cert.KernelIdeal.Stages

end
-- ==== Proof.Boundaries.lean ====
import proofs.«178323_j55714315764099_1_alg».proof.Proof.Gen.KernelIdeal.Frame
import proofs.«178323_j55714315764099_1_alg».proof.Proof.Stages
import Idealize.ShloMosaic.Lib.StableHlo.Run

/-!
  What the buffers hold at the boundaries between the program's five stretches.

  The first host stretch computes, from the edge list alone, the extended sources and targets and the edge coefficients
  (`first_sources`, `first_targets`, `first_coefficients`). The second, entered with the first product h₁ in its
  buffer, computes the hidden features `layer512 h₁ …` (`second_hidden`); the third, entered with the second product
  h₂, computes the result `layer256 h₂ …` (`third_result`). Each is a fold of that stretch's operations from whatever the
  buffers held before (`X`), read at one buffer. A stretch leaves every buffer it does not write as it found it
  (`kept_first` …), and a product region leaves every buffer but its output array as it found it, so the edge data and the
  arguments reach the stretch that reads them unchanged. Put together: the hidden features and the result as functions of
  the launch memory and of the two product arrays (`hidden`, `result`). Any float instance.
-/

set_option maxRecDepth 16384

noncomputable section

namespace Cert.KernelIdeal.Boundaries

open Cert.KernelIdeal Cert.KernelIdeal.Gen Cert.KernelIdeal.Stages
open Idealize.ShloMosaic Idealize.ShloMosaic.TcCoe Idealize.ShloMosaic.StableHlo Idealize.SL.Sem

variable {F : FTy → Type} [FloatOps F]

/-- No operation of the list writes the buffer: every operation's result buffer is another one. -/
local macro "unwritten" l:ident : tactic => `(tactic| exact StableHlo.after_of_forall_not_mem _ _ (List.forall_iff_forall_mem.mp (by
  simp only [$l:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

section Stretches

variable (X : Valuation τ sig (Elt F))

/-! ## The first stretch: the edge data -/

theorem first_sources : after hostOps0 X (Proc.devRef .tc main_v5) = sources (X (Proc.devRef .tc main_arg1)) := by
  after_results_simp; rfl

theorem first_targets : after hostOps0 X (Proc.devRef .tc main_v6) = targets (X (Proc.devRef .tc main_arg1)) := by
  after_results_simp; rfl

theorem first_coefficients : after hostOps0 X (Proc.devRef .tc main_v26) = coefficients (X (Proc.devRef .tc main_arg1)) := by
  after_results_simp; rfl

theorem kept_first_arg0 : after hostOps0 X (Proc.devRef .tc main_arg0) = X (Proc.devRef .tc main_arg0) := by unwritten hostOps0
theorem kept_first_arg2 : after hostOps0 X (Proc.devRef .tc main_arg2) = X (Proc.devRef .tc main_arg2) := by unwritten hostOps0
theorem kept_first_arg3 : after hostOps0 X (Proc.devRef .tc main_arg3) = X (Proc.devRef .tc main_arg3) := by unwritten hostOps0
theorem kept_first_arg4 : after hostOps0 X (Proc.devRef .tc main_arg4) = X (Proc.devRef .tc main_arg4) := by unwritten hostOps0
theorem kept_first_arg5 : after hostOps0 X (Proc.devRef .tc main_arg5) = X (Proc.devRef .tc main_arg5) := by unwritten hostOps0
theorem kept_first_arg6 : after hostOps0 X (Proc.devRef .tc main_arg6) = X (Proc.devRef .tc main_arg6) := by unwritten hostOps0
theorem kept_first_arg7 : after hostOps0 X (Proc.devRef .tc main_arg7) = X (Proc.devRef .tc main_arg7) := by unwritten hostOps0

/-! ## The second stretch: the hidden features from the first product -/

theorem second_hidden : after hostOps1 X (Proc.devRef .tc main_v44)
    = layer512 (X (Proc.devRef .tc main_v27)) (X (Proc.devRef .tc main_v5)) (X (Proc.devRef .tc main_v6)) (X (Proc.devRef .tc main_v26))
        (X (Proc.devRef .tc main_arg5)) (X (Proc.devRef .tc main_arg2)) := by
  after_results_simp; rfl

theorem kept_second_v5 : after hostOps1 X (Proc.devRef .tc main_v5) = X (Proc.devRef .tc main_v5) := by unwritten hostOps1
theorem kept_second_v6 : after hostOps1 X (Proc.devRef .tc main_v6) = X (Proc.devRef .tc main_v6) := by unwritten hostOps1
theorem kept_second_v26 : after hostOps1 X (Proc.devRef .tc main_v26) = X (Proc.devRef .tc main_v26) := by unwritten hostOps1
theorem kept_second_arg3 : after hostOps1 X (Proc.devRef .tc main_arg3) = X (Proc.devRef .tc main_arg3) := by unwritten hostOps1
theorem kept_second_arg6 : after hostOps1 X (Proc.devRef .tc main_arg6) = X (Proc.devRef .tc main_arg6) := by unwritten hostOps1
theorem kept_second_arg7 : after hostOps1 X (Proc.devRef .tc main_arg7) = X (Proc.devRef .tc main_arg7) := by unwritten hostOps1

/-! ## The third stretch: the result from the second product -/

theorem third_result : after hostOps2 X (Proc.devRef .tc main_v62)
    = layer256 (X (Proc.devRef .tc main_v45)) (X (Proc.devRef .tc main_v5)) (X (Proc.devRef .tc main_v6)) (X (Proc.devRef .tc main_v26))
        (X (Proc.devRef .tc main_arg7)) (X (Proc.devRef .tc main_arg3)) := by
  after_results_simp; rfl

end Stretches

/-! ## Through the run -/

variable (m : (ℓ : Loc nD τ sig) → Buf (Elt F) ℓ) (ρ : Dev nD → PrngReg)

/-- The edge data when the first product is entered, … -/
theorem sources_1 (c : Dev nD) : W1 m ρ c (Proc.devRef .tc main_v5) = sources (m ((c : Thread nD τ).loc main_arg1)) := first_sources (W0 m ρ c)
theorem targets_1 (c : Dev nD) : W1 m ρ c (Proc.devRef .tc main_v6) = targets (m ((c : Thread nD τ).loc main_arg1)) := first_targets (W0 m ρ c)
theorem coefficients_1 (c : Dev nD) : W1 m ρ c (Proc.devRef .tc main_v26) = coefficients (m ((c : Thread nD τ).loc main_arg1)) := first_coefficients (W0 m ρ c)

/-- … and when it is left: the region writes its output array only. -/
theorem sources_2 (c : Dev nD) : W2 m ρ c (Proc.devRef .tc main_v5) = sources (m ((c : Thread nD τ).loc main_arg1)) :=
  (W2_of_ne m ρ c main_v5 (by decide)).trans (sources_1 m ρ c)
theorem targets_2 (c : Dev nD) : W2 m ρ c (Proc.devRef .tc main_v6) = targets (m ((c : Thread nD τ).loc main_arg1)) :=
  (W2_of_ne m ρ c main_v6 (by decide)).trans (targets_1 m ρ c)
theorem coefficients_2 (c : Dev nD) : W2 m ρ c (Proc.devRef .tc main_v26) = coefficients (m ((c : Thread nD τ).loc main_arg1)) :=
  (W2_of_ne m ρ c main_v26 (by decide)).trans (coefficients_1 m ρ c)

/-- An argument when the first product is left. -/
theorem arg2_2 (c : Dev nD) : W2 m ρ c (Proc.devRef .tc main_arg2) = m ((c : Thread nD τ).loc main_arg2) :=
  (W2_of_ne m ρ c main_arg2 (by decide)).trans (kept_first_arg2 (W0 m ρ c))
theorem arg3_2 (c : Dev nD) : W2 m ρ c (Proc.devRef .tc main_arg3) = m ((c : Thread nD τ).loc main_arg3) :=
  (W2_of_ne m ρ c main_arg3 (by decide)).trans (kept_first_arg3 (W0 m ρ c))
theorem arg5_2 (c : Dev nD) : W2 m ρ c (Proc.devRef .tc main_arg5) = m ((c : Thread nD τ).loc main_arg5) :=
  (W2_of_ne m ρ c main_arg5 (by decide)).trans (kept_first_arg5 (W0 m ρ c))
theorem arg6_2 (c : Dev nD) : W2 m ρ c (Proc.devRef .tc main_arg6) = m ((c : Thread nD τ).loc main_arg6) :=
  (W2_of_ne m ρ c main_arg6 (by decide)).trans (kept_first_arg6 (W0 m ρ c))
theorem arg7_2 (c : Dev nD) : W2 m ρ c (Proc.devRef .tc main_arg7) = m ((c : Thread nD τ).loc main_arg7) :=
  (W2_of_ne m ρ c main_arg7 (by decide)).trans (kept_first_arg7 (W0 m ρ c))

/-- The two arrays the first product reads are the arguments x and W₁. -/
theorem entry_first_left (c : Dev nD) : V1 m ρ c main_arg0 = m ((c : Thread nD τ).loc main_arg0) := kept_first_arg0 (W0 m ρ c)
theorem entry_first_right (c : Dev nD) : V1 m ρ c main_arg4 = m ((c : Thread nD τ).loc main_arg4) := kept_first_arg4 (W0 m ρ c)

/-- THE HIDDEN FEATURES, as the second product finds them: one layer from the first product's output array. -/
theorem hidden (c : Dev nD) : V3 m ρ c main_v44
    = layer512 ((dat0 (V1 m ρ) c).arrAt 2 cfg0.N) (sources (m ((c : Thread nD τ).loc main_arg1))) (targets (m ((c : Thread nD τ).loc main_arg1)))
        (coefficients (m ((c : Thread nD τ).loc main_arg1))) (m ((c : Thread nD τ).loc main_arg5)) (m ((c : Thread nD τ).loc main_arg2)) := by
  refine (second_hidden (W2 m ρ c)).trans ?_
  have e27 : W2 m ρ c (Proc.devRef .tc main_v27) = (dat0 (V1 m ρ) c).arrAt 2 cfg0.N := W2_arr m ρ c 2
  rw [e27, sources_2 m ρ c, targets_2 m ρ c, coefficients_2 m ρ c, arg5_2 m ρ c, arg2_2 m ρ c]

/-- The right array the second product reads is the argument W₂. -/
theorem entry_second_right (c : Dev nD) : V3 m ρ c main_arg6 = m ((c : Thread nD τ).loc main_arg6) :=
  (kept_second_arg6 (W2 m ρ c)).trans (arg6_2 m ρ c)

/-- The edge data and the arguments the last stretch reads, when the second product is left. -/
theorem sources_4 (c : Dev nD) : W4 m ρ c (Proc.devRef .tc main_v5) = sources (m ((c : Thread nD τ).loc main_arg1)) :=
  (W4_of_ne m ρ c main_v5 (by decide)).trans ((kept_second_v5 (W2 m ρ c)).trans (sources_2 m ρ c))
theorem targets_4 (c : Dev nD) : W4 m ρ c (Proc.devRef .tc main_v6) = targets (m ((c : Thread nD τ).loc main_arg1)) :=
  (W4_of_ne m ρ c main_v6 (by decide)).trans ((kept_second_v6 (W2 m ρ c)).trans (targets_2 m ρ c))
theorem coefficients_4 (c : Dev nD) : W4 m ρ c (Proc.devRef .tc main_v26) = coefficients (m ((c : Thread nD τ).loc main_arg1)) :=
  (W4_of_ne m ρ c main_v26 (by decide)).trans ((kept_second_v26 (W2 m ρ c)).trans (coefficients_2 m ρ c))
theorem arg3_4 (c : Dev nD) : W4 m ρ c (Proc.devRef .tc main_arg3) = m ((c : Thread nD τ).loc main_arg3) :=
  (W4_of_ne m ρ c main_arg3 (by decide)).trans ((kept_second_arg3 (W2 m ρ c)).trans (arg3_2 m ρ c))
theorem arg7_4 (c : Dev nD) : W4 m ρ c (Proc.devRef .tc main_arg7) = m ((c : Thread nD τ).loc main_arg7) :=
  (W4_of_ne m ρ c main_arg7 (by decide)).trans ((kept_second_arg7 (W2 m ρ c)).trans (arg7_2 m ρ c))

/-- THE RESULT at the last boundary: one layer from the second product's output array. -/
theorem result (c : Dev nD) : W5 m ρ c (Proc.devRef .tc main_v62)
    = layer256 ((dat1 (V3 m ρ) c).arrAt 2 cfg1.N) (sources (m ((c : Thread nD τ).loc main_arg1))) (targets (m ((c : Thread nD τ).loc main_arg1)))
        (coefficients (m ((c : Thread nD τ).loc main_arg1))) (m ((c : Thread nD τ).loc main_arg7)) (m ((c : Thread nD τ).loc main_arg3)) := by
  refine (third_result (W4 m ρ c)).trans ?_
  have e45 : W4 m ρ c (Proc.devRef .tc main_v45) = (dat1 (V3 m ρ) c).arrAt 2 cfg1.N := W4_arr m ρ c 2
  rw [e45, sources_4 m ρ c, targets_4 m ρ c, coefficients_4 m ρ c, arg7_4 m ρ c, arg3_4 m ρ c]

end Cert.KernelIdeal.Boundaries

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.RegionProduct.lean ====
import proofs.«178323_j55714315764099_1_alg».proof.Proof.Gen.KernelIdeal.Frame
import proofs.«178323_j55714315764099_1_alg».proof.Proof.LibSideBySide
import Idealize.ShloMosaic.Lib.Pipeline.Value
import Idealize.ShloMosaic.Lib.ValueIdx

/-!
  A matrix product formed ten row blocks at a time is the matrix product.

  Entry (a, b) of A·B is the sum over c of A(a, c) · B(c, b): row a of the product needs row a of A and all of B. So if a
  is the block of rows off, …, off + r − 1 of A, the product a·B is the block of the same rows of A·B (`entry_of_rows`).
  The kernel's grid has ten points; point t loads rows 1000·t, …, 1000·t + 999 of the left array and the whole right
  array, multiplies them on the matrix unit into a zero block — over the extended reals that is the plain sum, and the
  narrowing of both factors to bfloat16 on the way is the identity there — and writes the block back to the same rows of
  the output array. The ten blocks tile the 10000 rows, so the output array ends holding the whole product
  (`first_product`, `second_product`). Nothing here asks that an entry be finite.
-/

set_option maxRecDepth 16384

noncomputable section

namespace MatrixProduct

open Idealize.ShloMosaic Idealize.ShloMosaic.ValueIdx

variable {R r k n : Nat}

/-- The product of an r×k and a k×n array of extended reals, as an r×n array. -/
def product (A : (⟨2, ![r, k]⟩ : Shape).Idx → EReal) (B : (⟨2, ![k, n]⟩ : Shape).Idx → EReal) :
    (⟨2, ![r, n]⟩ : Shape).Idx → EReal :=
  fun i => SideBySide.entry A B (i 0) (i 1)

/-- The product at an index whose coordinates are a and b is entry (a, b). -/
theorem product_at (A : (⟨2, ![r, k]⟩ : Shape).Idx → EReal) (B : (⟨2, ![k, n]⟩ : Shape).Idx → EReal)
    (i : (⟨2, ![r, n]⟩ : Shape).Idx) (a : Fin r) (b : Fin n) (ha : (i 0).val = a.val) (hb : (i 1).val = b.val) :
    product A B i = SideBySide.entry A B a b :=
  congrArg₂ (SideBySide.entry A B) (Fin.ext ha) (Fin.ext hb)

/-- Rows off … off + r − 1 of A times B are rows off … off + r − 1 of A·B. -/
theorem entry_of_rows (A : (⟨2, ![R, k]⟩ : Shape).Idx → EReal) (B : (⟨2, ![k, n]⟩ : Shape).Idx → EReal)
    (a : (⟨2, ![r, k]⟩ : Shape).Idx → EReal) (b : (⟨2, ![k, n]⟩ : Shape).Idx → EReal) (off : Nat) (hoff : off + r ≤ R)
    (ha : ∀ (p : Fin r) (c : Fin k), a (ix2 p c) = A (ix2 ⟨off + p.val, by have := p.isLt; omega⟩ c))
    (hb : ∀ (c : Fin k) (q : Fin n), b (ix2 c q) = B (ix2 c q)) (p : Fin r) (q : Fin n) :
    SideBySide.entry a b p q = SideBySide.entry A B ⟨off + p.val, by have := p.isLt; omega⟩ q := by
  unfold SideBySide.entry
  exact Finset.sum_congr rfl fun c _ => by rw [ha, hb]

/-- The host's product of two whole arrays is that array. -/
theorem hostProduct_eq (d : DotDims ⟨2, ![r, k]⟩ ⟨2, ![k, n]⟩ ⟨2, ![r, n]⟩) (hd : d = DotDims.plain r k n)
    (prec : Option ContractPrecision) (A : FVec Ideal ⟨2, ![r, k]⟩ .f32) (B : FVec Ideal ⟨2, ![k, n]⟩ .f32) :
    Host.dotGeneral d prec A B = product A B := by
  funext j
  obtain ⟨a, b, rfl⟩ : ∃ (a : Fin r) (b : Fin n), j = ix2 a b := ⟨j 0, j 1, eq_ix2 j⟩
  exact SideBySide.hostProduct_apply d hd prec A B a b

end MatrixProduct

namespace Cert.KernelIdeal.Products

open Cert.KernelIdeal Cert.KernelIdeal.Gen Idealize.ShloMosaic Idealize.ShloMosaic.TcCoe Idealize.ShloMosaic.ValueIdx MatrixProduct
open Idealize.ShloMosaic.Pipeline (Dat)

theorem hz : (![0, 0] : Fin 2 → Nat) = fun _ => 0 := funext fun a => by fin_cases a <;> rfl

/-! ## The first product: 10000×256 by 256×512 -/

/-- What one grid point computes, read at an entry: from rows off … off + 999 of A and the whole of B, the same rows of A·B. -/
theorem block_first (A : S10000x256.Idx → EReal) (B : S256x512.Idx → EReal) (x0 : Vec Ideal S1000x256 .f32) (x1 : Vec Ideal S256x512 .f32)
    (off : Nat) (hoff : off + 1000 ≤ 10000)
    (h0 : ∀ (p : Fin 1000) (c : Fin 256), x0 (ix2 p c) = A (ix2 ⟨off + p.val, by have := p.isLt; omega⟩ c))
    (h1 : ∀ (c : Fin 256) (q : Fin 512), x1 (ix2 c q) = B (ix2 c q))
    (j : S1000x512.Idx) (i : S10000x512.Idx) (hi0 : (i 0).val = off + (j 0).val) (hi1 : (i 1).val = (j 1).val) :
    k0_pay1 x0 x1 j = product (r := 10000) (k := 256) (n := 512) A B i := by
  obtain ⟨p, q, rfl⟩ : ∃ (p : Fin 1000) (q : Fin 512), j = ix2 p q := ⟨j 0, j 1, eq_ix2 j⟩
  rw [product_at A B i ⟨off + p.val, by have := p.isLt; omega⟩ q hi0 hi1]
  unfold k0_pay1
  refine (SideBySide.kernelProduct_apply dot_S1000x256_S256x512_S1000x512_1_0_0_1_n_n rfl none _ _ p q).trans ?_
  exact entry_of_rows A B _ _ off hoff (fun p c => h0 p c) (fun c q => h1 c q) p q

/-- Where each window's block sits at grid point t: the left and the output blocks at rows 1000·t, the right array whole. -/
theorem blocks_first : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the product of the two arrays as the region finds them. -/
theorem flushed_first (c : Dev nD) (t : Fin cfg0.N) :
    (dat0 (F := Ideal) V c).flushed 2 t
      = ((cfg0.win 2).blk t).view.read (Elt Ideal) (product (r := 10000) (k := 256) (n := 512) (V c main_arg0) (V c main_arg4)) := by
  show (cfg0.win 2).cut (grid0.coords t) ((dat0 V c).after 2 t) = _
  rw [after0_2]
  unfold out0_2
  rw [View.canon_unit_zero hz]
  simp only [View.ld_unit_zero (S := S1000x256) hz, View.ld_unit_zero (S := S256x512) hz]
  obtain ⟨e0, e1, e2, e3, e4, e5⟩ := blocks_first t
  have ht : t.val < 10 := t.isLt
  funext j
  show k0_pay1 (iblk0 V c 0 t) (iblk0 V c 1 t) j
    = product (r := 10000) (k := 256) (n := 512) (V c main_arg0) (V c main_arg4) (((cfg0.win 2).blk t).view.emb j)
  refine block_first (V c main_arg0) (V c main_arg4) (iblk0 V c 0 t) (iblk0 V c 1 t) (t.val * 1000) (by omega)
    (fun p c' => ?_) (fun c' q => ?_) j (((cfg0.win 2).blk t).view.emb j) ?_ ?_
  · show V c main_arg0 (((cfg0.win 0).blk t).view.emb (ix2 p c')) = V c main_arg0 (ix2 ⟨t.val * 1000 + p.val, _⟩ c')
    refine congrArg (V c main_arg0) ?_
    funext a; apply Fin.ext
    match a with
    | ⟨0, _⟩ => show win0_0.index t (0 : Fin 2) * 1000 + 1 * p.val = t.val * 1000 + p.val; omega
    | ⟨1, _⟩ => show win0_0.index t (1 : Fin 2) * 256 + 1 * c'.val = c'.val; omega
  · show V c main_arg4 (((cfg0.win 1).blk t).view.emb (ix2 c' q)) = V c main_arg4 (ix2 c' q)
    refine congrArg (V c main_arg4) ?_
    funext a; apply Fin.ext
    match a with
    | ⟨0, _⟩ => show win0_1.index t (0 : Fin 2) * 256 + 1 * c'.val = c'.val; omega
    | ⟨1, _⟩ => show win0_1.index t (1 : Fin 2) * 512 + 1 * q.val = q.val; omega
  · show win0_2.index t (0 : Fin 2) * 1000 + 1 * (j 0).val = t.val * 1000 + (j 0).val; omega
  · show win0_2.index t (1 : Fin 2) * 512 + 1 * (j 1).val = (j 1).val; omega

/-- An index of the output array is in point t's block iff each coordinate is in the block's range on its axis. -/
theorem mem_block_first (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v27).slice (win0_2.rect t)).set ↔ _
  rw [View.set_slice_whole, Rect.mem_set_unit]
  exact Iff.rfl

/-- Row r of the output array is written by point r / 1000: the ten blocks tile the array. -/
theorem cover_first (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, htv⟩ : ∃ t : Fin cfg0.N, t.val = (i 0).val / 1000 := ⟨⟨(i 0).val / 1000, by show _ < 10; omega⟩, rfl⟩
  obtain ⟨-, -, -, -, e4, e5⟩ := blocks_first t
  refine ⟨t, flush0_2 t, ?_⟩
  rw [mem_block_first]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- THE FIRST PRODUCT: after the ten points the output array holds the product of the two input arrays. -/
theorem first_product (c : Dev nD) :
    (dat0 (F := Ideal) V c).arrAt 2 cfg0.N = product (r := 10000) (k := 256) (n := 512) (V c main_arg0) (V c main_arg4) :=
  (dat0 V c).arrAt_eq_of_cover 2 _ (fun t _ => flushed_first V c t) cover_first

end

/-! ## The second product: 10000×512 by 512×256 -/

/-- What one grid point computes, read at an entry (the block passes through a shape cast to its own shape first). -/
theorem block_second (A : S10000x512.Idx → EReal) (B : S512x256.Idx → EReal) (x0 : Vec Ideal S1000x512 .f32) (x1 : Vec Ideal S512x256 .f32)
    (off : Nat) (hoff : off + 1000 ≤ 10000)
    (h0 : ∀ (p : Fin 1000) (c : Fin 512), x0 (ix2 p c) = A (ix2 ⟨off + p.val, by have := p.isLt; omega⟩ c))
    (h1 : ∀ (c : Fin 512) (q : Fin 256), x1 (ix2 c q) = B (ix2 c q))
    (j : S1000x256.Idx) (i : S10000x256.Idx) (hi0 : (i 0).val = off + (j 0).val) (hi1 : (i 1).val = (j 1).val) :
    k1_pay1 x0 x1 j = product (r := 10000) (k := 512) (n := 256) A B i := by
  obtain ⟨p, q, rfl⟩ : ∃ (p : Fin 1000) (q : Fin 256), j = ix2 p q := ⟨j 0, j 1, eq_ix2 j⟩
  rw [product_at A B i ⟨off + p.val, by have := p.isLt; omega⟩ q hi0 hi1]
  unfold k1_pay1
  refine (SideBySide.kernelProduct_apply dot_S1000x512_S512x256_S1000x256_1_0_0_1_n_n rfl none _ _ p q).trans ?_
  exact entry_of_rows A B _ _ off hoff
    (fun p c => (congrFun (shapeCast_self x0 shapeCasts_S1000x512_S1000x512) (ix2 p c)).trans (h0 p c)) (fun c q => h1 c q) p q

theorem blocks_second : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

theorem flushed_second (c : Dev nD) (t : Fin cfg1.N) :
    (dat1 (F := Ideal) V c).flushed 2 t
      = ((cfg1.win 2).blk t).view.read (Elt Ideal) (product (r := 10000) (k := 512) (n := 256) (V c main_v44) (V c main_arg6)) := by
  show (cfg1.win 2).cut (grid1.coords t) ((dat1 V c).after 2 t) = _
  rw [after1_2]
  unfold out1_2
  rw [View.canon_unit_zero hz]
  simp only [View.ld_unit_zero (S := S1000x512) hz, View.ld_unit_zero (S := S512x256) hz]
  obtain ⟨e0, e1, e2, e3, e4, e5⟩ := blocks_second t
  have ht : t.val < 10 := t.isLt
  funext j
  show k1_pay1 (iblk1 V c 0 t) (iblk1 V c 1 t) j
    = product (r := 10000) (k := 512) (n := 256) (V c main_v44) (V c main_arg6) (((cfg1.win 2).blk t).view.emb j)
  refine block_second (V c main_v44) (V c main_arg6) (iblk1 V c 0 t) (iblk1 V c 1 t) (t.val * 1000) (by omega)
    (fun p c' => ?_) (fun c' q => ?_) j (((cfg1.win 2).blk t).view.emb j) ?_ ?_
  · show V c main_v44 (((cfg1.win 0).blk t).view.emb (ix2 p c')) = V c main_v44 (ix2 ⟨t.val * 1000 + p.val, _⟩ c')
    refine congrArg (V c main_v44) ?_
    funext a; apply Fin.ext
    match a with
    | ⟨0, _⟩ => show win1_0.index t (0 : Fin 2) * 1000 + 1 * p.val = t.val * 1000 + p.val; omega
    | ⟨1, _⟩ => show win1_0.index t (1 : Fin 2) * 512 + 1 * c'.val = c'.val; omega
  · show V c main_arg6 (((cfg1.win 1).blk t).view.emb (ix2 c' q)) = V c main_arg6 (ix2 c' q)
    refine congrArg (V c main_arg6) ?_
    funext a; apply Fin.ext
    match a with
    | ⟨0, _⟩ => show win1_1.index t (0 : Fin 2) * 512 + 1 * c'.val = c'.val; omega
    | ⟨1, _⟩ => show win1_1.index t (1 : Fin 2) * 256 + 1 * q.val = q.val; omega
  · show win1_2.index t (0 : Fin 2) * 1000 + 1 * (j 0).val = t.val * 1000 + (j 0).val; omega
  · show win1_2.index t (1 : Fin 2) * 256 + 1 * (j 1).val = (j 1).val; omega

theorem mem_block_second (t : Fin cfg1.N) (i : S10000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v45).slice (win1_2.rect t)).set ↔ _
  rw [View.set_slice_whole, Rect.mem_set_unit]
  exact Iff.rfl

theorem cover_second (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  obtain ⟨t, htv⟩ : ∃ t : Fin cfg1.N, t.val = (i 0).val / 1000 := ⟨⟨(i 0).val / 1000, by show _ < 10; omega⟩, rfl⟩
  obtain ⟨-, -, -, -, e4, e5⟩ := blocks_second t
  refine ⟨t, flush1_2 t, ?_⟩
  rw [mem_block_second]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- THE SECOND PRODUCT: after the ten points the output array holds the product of the two input arrays. -/
theorem second_product (c : Dev nD) :
    (dat1 (F := Ideal) V c).arrAt 2 cfg1.N = product (r := 10000) (k := 512) (n := 256) (V c main_v44) (V c main_arg6) :=
  (dat1 V c).arrAt_eq_of_cover 2 _ (fun t _ => flushed_second V c t) cover_second

end

end Cert.KernelIdeal.Products

end
-- ==== Proof.KernelValue.lean ====
import proofs.«178323_j55714315764099_1_alg».proof.Proof.Boundaries
import proofs.«178323_j55714315764099_1_alg».proof.Proof.RegionProduct

/-!
  The kernel program's result, at the ideal values, is the network over the plain products.

  The result at the last boundary is the width-256 layer of the second region's output array; that array is the product of
  the hidden features with W₂; the hidden features are the width-512 layer of the first region's output array; and that
  array is the product of x with W₁.
-/

set_option maxRecDepth 16384

noncomputable section

namespace Cert.KernelIdeal.Launched

open Cert.KernelIdeal Cert.KernelIdeal.Gen Cert.KernelIdeal.Stages MatrixProduct
open Idealize.ShloMosaic Idealize.ShloMosaic.TcCoe Idealize.SL.Sem

theorem result_product (m : (ℓ : Loc nD τ sig) → Buf (Elt Ideal) ℓ) (ρ : Dev nD → PrngReg) (c : Dev nD) :
    W5 m ρ c (Proc.devRef .tc main_v62)
      = network (F := Ideal) (product (r := 10000) (k := 256) (n := 512)) (product (r := 10000) (k := 512) (n := 256))
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Boundaries.result m ρ c, Products.second_product (V3 m ρ) c, Boundaries.hidden m ρ c, Boundaries.entry_second_right m ρ c,
    Products.first_product (V1 m ρ) c, Boundaries.entry_first_left m ρ c, Boundaries.entry_first_right m ρ c]
  rfl

end Cert.KernelIdeal.Launched

end
-- ==== Proof.Reference.lean ====
import proofs.«178323_j55714315764099_1_alg».proof.Proof.Gen.ReferenceIdeal.Run
import proofs.«178323_j55714315764099_1_alg».proof.Proof.Stages
import proofs.«178323_j55714315764099_1_alg».proof.Proof.RegionProduct

/-!
  The reference computes the same network, over the host's two products.

  The reference's result is one composed term of its arguments. Read from the outside in, it is the width-256 layer of
  the product of the hidden features with W₂, the hidden features being the width-512 layer of the product of x with W₁ —
  the edge data computed twice from the same edge list, hence the same both times (`result_network`: the two texts are the
  same operations, so this is by unfolding). At the ideal values the host's product of two arrays is the array of the
  plain sums, so the reference's result is the network over that product function (`result_product`).
-/

set_option maxRecDepth 16384

noncomputable section

namespace Cert.ReferenceIdeal.RefValue

open Idealize.ShloMosaic Idealize.ShloMosaic.TcCoe Cert.ReferenceIdeal Cert.KernelIdeal.Stages MatrixProduct

variable {F : FTy → Type} [FloatOps F]

/-- The reference's result term is the network over the host's products. -/
theorem result_network (m : (ℓ : Loc nD τ sig) → Buf (Elt F) ℓ) (c : Dev nD) :
    Cert.ReferenceIdeal.Value.res_main_v85 m c
      = network (fun l r => Host.dotGeneral dot_S10000x256_S256x512_S10000x512_1_0_0_1_n_n none l r)
          (fun l r => Host.dotGeneral dot_S10000x512_S512x256_S10000x256_1_0_0_1_n_n none l r)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v85
  rfl

/-- At the ideal values: the network over the plain products. -/
theorem result_product (m : (ℓ : Loc nD τ sig) → Buf (Elt Ideal) ℓ) (c : Dev nD) :
    Cert.ReferenceIdeal.Value.res_main_v85 m c
      = network (F := Ideal) (product (r := 10000) (k := 256) (n := 512)) (product (r := 10000) (k := 512) (n := 256))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [result_network]
  have h₁ : (fun (l : FVec Ideal ⟨2, ![10000, 256]⟩ .f32) (r : FVec Ideal ⟨2, ![256, 512]⟩ .f32) =>
      Host.dotGeneral dot_S10000x256_S256x512_S10000x512_1_0_0_1_n_n none l r) = product (r := 10000) (k := 256) (n := 512) :=
    funext fun l => funext fun r => hostProduct_eq dot_S10000x256_S256x512_S10000x512_1_0_0_1_n_n rfl none l r
  have h₂ : (fun (l : FVec Ideal ⟨2, ![10000, 512]⟩ .f32) (r : FVec Ideal ⟨2, ![512, 256]⟩ .f32) =>
      Host.dotGeneral dot_S10000x512_S512x256_S10000x256_1_0_0_1_n_n none l r) = product (r := 10000) (k := 512) (n := 256) :=
    funext fun l => funext fun r => hostProduct_eq dot_S10000x512_S512x256_S10000x256_1_0_0_1_n_n rfl none l r
  exact congrArg₂ (fun f g => network (F := Ideal) f g
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))) h₁ h₂

end Cert.ReferenceIdeal.RefValue

end
-- ==== Proof.lean ====
/-
  A two-layer graph convolution whose two dense products run as tiled matrix-unit kernels, against the same network with
  the products formed whole on the host.

  Both programs take node features x (10000 × 256), an edge list (2 × 320000 node numbers), two perturbations and the
  weights and biases of two layers. Both extend the edges by a self-loop per node, weigh an extended edge s → d by
  deg(s)^(-1/2) · deg(d)^(-1/2), and compute, per layer, the product h of the layer's input with its weights, the sum over
  the edges arriving at each node of the coefficient times row s of h, plus the bias row, plus the layer's perturbation.
  They differ in one place only: the product. The kernel program forms each product on the matrix unit, ten blocks of
  1000 rows at a time, from factors narrowed to bfloat16, accumulating into zero; the reference forms it by one
  dot_general. Over the extended reals a narrowing is the identity and either product's entry (a, b) is the plain sum over
  c of A(a, c) · B(c, b), a row block of the product depending on the same rows of the left factor alone; so the ten blocks
  assemble to the whole product (Proof/RegionProduct.lean), the buffers between the stretches carry the same functions of
  the arguments in both programs (Proof/Stages.lean, Proof/Boundaries.lean, Proof/Reference.lean), and the two results are
  one function of the arguments. No law used needs an entry to be finite: sums are only regrouped by rows, never
  distributed over, so the precondition is not opened.

  The frames of the two kernel programs are the generated ones; the reference's frame is its generated run with the result
  dropped; the ideal pass rewrote nothing, so the idealization conjunct is trivial.
-/
import proofs.«178323_j55714315764099_1_alg».proof.Defs
import proofs.«178323_j55714315764099_1_alg».proof.Proof.Gen.Kernel
import proofs.«178323_j55714315764099_1_alg».proof.Proof.Gen.Kernel.Skeleton
import proofs.«178323_j55714315764099_1_alg».proof.Proof.Gen.Kernel.Launch
import proofs.«178323_j55714315764099_1_alg».proof.Proof.Gen.Kernel.Points
import proofs.«178323_j55714315764099_1_alg».proof.Proof.Gen.Kernel.Frame
import proofs.«178323_j55714315764099_1_alg».proof.Proof.Gen.KernelIdeal
import proofs.«178323_j55714315764099_1_alg».proof.Proof.Gen.KernelIdeal.Skeleton
import proofs.«178323_j55714315764099_1_alg».proof.Proof.Gen.KernelIdeal.Launch
import proofs.«178323_j55714315764099_1_alg».proof.Proof.Gen.KernelIdeal.Points
import proofs.«178323_j55714315764099_1_alg».proof.Proof.Gen.KernelIdeal.Frame
import proofs.«178323_j55714315764099_1_alg».proof.Proof.Gen.ReferenceIdeal
import proofs.«178323_j55714315764099_1_alg».proof.Proof.Gen.ReferenceIdeal.Run
import proofs.«178323_j55714315764099_1_alg».proof.Proof.Gen.Pre_finite_inputs
import proofs.«178323_j55714315764099_1_alg».proof.Proof.KernelRun
import proofs.«178323_j55714315764099_1_alg».proof.Proof.KernelValue
import proofs.«178323_j55714315764099_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, the reference's result term and the kernel program's result at its
    last boundary are the same network over the plain products, of the same arguments. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v85 m' c = Cert.KernelIdeal.Gen.W5 m ρ c (Proc.devRef .tc Cert.KernelIdeal.main_v62) := by
  obtain ⟨h0, h1, h2, h3, h4, h5, h6, h7⟩ := h
  rw [Cert.ReferenceIdeal.RefValue.result_product m' c, Cert.KernelIdeal.Launched.result_product m ρ c, h0, h1, h2, h3, h4, h5, h6, h7]

/-- Both idealized programs run, and end with the same result array. -/
theorem algebraic : Cert.algebraic_KernelIdeal_ReferenceIdeal := by
  intro m ρ m' ρ' _ hagree
  refine ⟨fun c => Cert.KernelIdeal.Gen.W5 m ρ c (Proc.devRef .tc Cert.KernelIdeal.main_v62),
    Cert.KernelIdeal.Launched.run_result (F := Ideal) m ρ, ?_⟩
  exact (θ_run Cert.ReferenceIdeal.defs _ _).mono
    (fun _ h c => ⟨(h c).1.trans (results_agree m ρ m' c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
